-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x512 : Shape := ⟨3, ![4, 8192, 512]⟩
abbrev S256x256 : Shape := ⟨2, ![256, 256]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S2048x8 : S_.BroadcastsInDim S2048x8 (![] : Fin 0 → Fin S2048x8.rank)
  reducesTo_S2048x8_S_d0_1 : S2048x8.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S2048 .f32) (main_arg5 : FVec F S512x2048 .f32) (main_arg6 : FVec F S512 .f32) (main_v13 : IVec S_ 1) (main_v16 : IVec S2048x8 1) : IVec S_ 1 :=
  let main_c_5 : IVec S_ 1 := constantI S_ 1 1#1
  let main_v17 : IVec S_ 1 := (fun x v => Host.reduce IntOp.andi x v reducesTo_S2048x8_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S4x8192x512 .f32) (main_arg1 : FVec F S256x256 .f32) (main_arg2 : FVec F S256x256 .f32) (main_arg3 : FVec F S2048x8 .f32) (main_arg4 : FVec F S2048 .f32) (main_arg5 : FVec F S512x2048 .f32) (main_arg6 : FVec F S512 .f32) : IVec S_ 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S2048x8 .f32 := Host.absf main_arg3
  let main_cst_4 : FVec F S_ .f32 := constant S_ .f32 0x7F800000#32
  let main_v15 : FVec F S2048x8 .f32 := broadcastInDim S2048x8 ![] bcast_S_S2048x8 main_cst_4
  let main_v16 : IVec S2048x8 1 := cmpf .olt main_v14 main_v15
  fn_part1 (F := F) main_arg4 main_arg5 main_arg6 main_v13 main_v16
-- ==== Kernel.lean ====
abbrev S4x8192x512 : Shape := ⟨3, ![4, 8192, 512]⟩
abbrev S256x256 : Shape := ⟨2, ![256, 256]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S256x1 : Shape := ⟨2, ![256, 1]⟩
abbrev S256 : Shape := ⟨1, ![256]⟩
abbrev S2x2x2x2x2x2x2x2 : Shape := ⟨8, ![2, 2, 2, 2, 2, 2, 2, 2]⟩
abbrev S2x128 : Shape := ⟨2, ![2, 128]⟩
abbrev S_ : Shape := ⟨0, ![]⟩
abbrev S2 : Shape := ⟨1, ![2]⟩
abbrev S1 : Shape := ⟨1, ![1]⟩
abbrev S8 : Shape := ⟨1, ![8]⟩
abbrev S8x2048 : Shape := ⟨2, ![8, 2048]⟩
abbrev S2048x512 : Shape := ⟨2, ![2048, 512]⟩
abbrev S1x8 : Shape := ⟨2, ![1, 8]⟩
abbrev S1x2048 : Shape := ⟨2, ![1, 2048]⟩
abbrev S1x512 : Shape := ⟨2, ![1, 512]⟩
abbrev S4x2048x512 : Shape := ⟨3, ![4, 2048, 512]⟩
abbrev S1x1x512 : Shape := ⟨3, ![1, 1, 512]⟩

abbrev nBuf : Space → Nat
  | .hbm => 101
  | .vmem => 7
  | .smem => 0
  | _ => 0

abbrev bufTy : (tb : Table) → Fin (tcTables nBuf tb) → BufTy
  | .hbm, ⟨0, _⟩ => ⟨S4x8192x512, .f32⟩
  | .hbm, ⟨1, _⟩ => ⟨S256x256, .f32⟩
  | .hbm, ⟨2, _⟩ => ⟨S256x256, .f32⟩
  | .hbm, ⟨3, _⟩ => ⟨S2048x8, .f32⟩
  | .hbm, ⟨4, _⟩ => ⟨S2048, .f32⟩
  | .hbm, ⟨5, _⟩ => ⟨S512x2048, .f32⟩
  | .hbm, ⟨6, _⟩ => ⟨S512, .f32⟩
  | .hbm, ⟨7, _⟩ => ⟨S256x1, .f32⟩
  | .hbm, ⟨8, _⟩ => ⟨S256, .f32⟩
  | .hbm, ⟨9, _⟩ => ⟨S256x1, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S2x2x2x2x2x2x2x2, .f32⟩
  | .hbm, ⟨15, _⟩ => ⟨S2x128, .f32⟩
  | .hbm, ⟨16, _⟩ => ⟨S_, .f32⟩
  | .hbm, ⟨17, _⟩ => ⟨S2, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S_, .f32⟩
  | .hbm, ⟨23, _⟩ => ⟨S2x2x2x2x2x2x2x2, .f32⟩
  | .hbm, ⟨24, _⟩ => ⟨S2x128, .f32⟩
  | .hbm, ⟨25, _⟩ => ⟨S_, .f32⟩
  | .hbm, ⟨26, _⟩ => ⟨S2, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S_, .f32⟩
  | .hbm, ⟨32, _⟩ => ⟨S2x2x2x2x2x2x2x2, .f32⟩
  | .hbm, ⟨33, _⟩ => ⟨S2x128, .f32⟩
  | .hbm, ⟨34, _⟩ => ⟨S_, .f32⟩
  | .hbm, ⟨35, _⟩ => ⟨S2, .f32⟩
  | .hbm, ⟨36, _⟩ => ⟨S1, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S_, .f32⟩
  | .hbm, ⟨41, _⟩ => ⟨S2x2x2x2x2x2x2x2, .f32⟩
  | .hbm, ⟨42, _⟩ => ⟨S2x128, .f32⟩
  | .hbm, ⟨43, _⟩ => ⟨S_, .f32⟩
  | .hbm, ⟨44, _⟩ => ⟨S2, .f32⟩
  | .hbm, ⟨45, _⟩ => ⟨S1, .f32⟩
  | .hbm, ⟨46, _⟩ => ⟨S_, .f32⟩
  | .hbm, ⟨47, _⟩ => ⟨S1, .f32⟩
  | .hbm, ⟨48, _⟩ => ⟨S_, .f32⟩
  | .hbm, ⟨49, _⟩ => ⟨S_, .f32⟩
  | .hbm, ⟨50, _⟩ => ⟨S2x2x2x2x2x2x2x2, .f32⟩
  | .hbm, ⟨51, _⟩ => ⟨S2x128, .f32⟩
  | .hbm, ⟨52, _⟩ => ⟨S_, .f32⟩
  | .hbm, ⟨53, _⟩ => ⟨S2, .f32⟩
  | .hbm, ⟨54, _⟩ => ⟨S1, .f32⟩
  | .hbm, ⟨55, _⟩ => ⟨S_, .f32⟩
  | .hbm, ⟨56, _⟩ => ⟨S1, .f32⟩
  | .hbm, ⟨57, _⟩ => ⟨S_, .f32⟩
  | .hbm, ⟨58, _⟩ => ⟨S_, .f32⟩
  | .hbm, ⟨59, _⟩ => ⟨S2x2x2x2x2x2x2x2, .f32⟩
  | .hbm, ⟨60, _⟩ => ⟨S2x128, .f32⟩
  | .hbm, ⟨61, _⟩ => ⟨S_, .f32⟩
  | .hbm, ⟨62, _⟩ => ⟨S2, .f32⟩
  | .hbm, ⟨63, _⟩ => ⟨S1, .f32⟩
  | .hbm, ⟨64, _⟩ => ⟨S_, .f32⟩
  | .hbm, ⟨65, _⟩ => ⟨S1, .f32⟩
  | .hbm, ⟨66, _⟩ => ⟨S_, .f32⟩
  | .hbm, ⟨67, _⟩ => ⟨S_, .f32⟩
  | .hbm, ⟨68, _⟩ => ⟨S2x2x2x2x2x2x2x2, .f32⟩
  | .hbm, ⟨69, _⟩ => ⟨S2x128, .f32⟩
  | .hbm, ⟨70, _⟩ => ⟨S_, .f32⟩
  | .hbm, ⟨71, _⟩ => ⟨S2, .f32⟩
  | .hbm, ⟨72, _⟩ => ⟨S1, .f32⟩
  | .hbm, ⟨73, _⟩ => ⟨S_, .f32⟩
  | .hbm, ⟨74, _⟩ => ⟨S1, .f32⟩
  | .hbm, ⟨75, _⟩ => ⟨S_, .f32⟩
  | .hbm, ⟨76, _⟩ => ⟨S_, .f32⟩
  | .hbm, ⟨77, _⟩ => ⟨S2x2x2x2x2x2x2x2, .f32⟩
  | .hbm, ⟨78, _⟩ => ⟨S2x128, .f32⟩
  | .hbm, ⟨79, _⟩ => ⟨S_, .f32⟩
  | .hbm, ⟨80, _⟩ => ⟨S2, .f32⟩
  | .hbm, ⟨81, _⟩ => ⟨S1, .f32⟩
  | .hbm, ⟨82, _⟩ => ⟨S_, .f32⟩
  | .hbm, ⟨83, _⟩ => ⟨S1, .f32⟩
  | .hbm, ⟨84, _⟩ => ⟨S_, .f32⟩
  | .hbm, ⟨85, _⟩ => ⟨S_, .f32⟩
  | .hbm, ⟨86, _⟩ => ⟨S1, .f32⟩
  | .hbm, ⟨87, _⟩ => ⟨S1, .f32⟩
  | .hbm, ⟨88, _⟩ => ⟨S1, .f32⟩
  | .hbm, ⟨89, _⟩ => ⟨S1, .f32⟩
  | .hbm, ⟨90, _⟩ => ⟨S1, .f32⟩
  | .hbm, ⟨91, _⟩ => ⟨S1, .f32⟩
  | .hbm, ⟨92, _⟩ => ⟨S1, .f32⟩
  | .hbm, ⟨93, _⟩ => ⟨S1, .f32⟩
  | .hbm, ⟨94, _⟩ => ⟨S8, .f32⟩
  | .hbm, ⟨95, _⟩ => ⟨S8x2048, .f32⟩
  | .hbm, ⟨96, _⟩ => ⟨S2048x512, .f32⟩
  | .hbm, ⟨97, _⟩ => ⟨S1x8, .f32⟩
  | .hbm, ⟨98, _⟩ => ⟨S1x2048, .f32⟩
  | .hbm, ⟨99, _⟩ => ⟨S1x512, .f32⟩
  | .hbm, ⟨100, _⟩ => ⟨S4x8192x512, .f32⟩
  | .local _ .vmem, ⟨0, _⟩ => ⟨S1x8, .f32⟩
  | .local _ .vmem, ⟨1, _⟩ => ⟨S8x2048, .f32⟩
  | .local _ .vmem, ⟨2, _⟩ => ⟨S1x2048, .f32⟩
  | .local _ .vmem, ⟨3, _⟩ => ⟨S2048x512, .f32⟩
  | .local _ .vmem, ⟨4, _⟩ => ⟨S1x512, .f32⟩
  | .local _ .vmem, ⟨5, _⟩ => ⟨S4x2048x512, .f32⟩
  | .local _ .vmem, ⟨6, _⟩ => ⟨S4x2048x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_6 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S256x256_S256x1_0_0 : S256x256.Slices ![0, 0] S256x1
  shapeCasts_S256x1_S256 : S256x1.ShapeCasts S256
  shapeCasts_S256_S2x2x2x2x2x2x2x2 : S256.ShapeCasts S2x2x2x2x2x2x2x2
  shapeCasts_S2x2x2x2x2x2x2x2_S2x128 : S2x2x2x2x2x2x2x2.ShapeCasts S2x128
  reducesTo_S2x128_S2_d1 : S2x128.ReducesTo [1] S2
  h_S_ : 0 < S_.numel
  slices_S2_S1_0 : S2.Slices ![0] S1
  shapeCasts_S1_S_ : S1.ShapeCasts S_
  slices_S2_S1_1 : S2.Slices ![1] S1
  transposes_S2x2x2x2x2x2x2x2_S2x2x2x2x2x2x2x2_1_0_2_3_4_5_6_7 : S2x2x2x2x2x2x2x2.Transposes [1, 0, 2, 3, 4, 5, 6, 7] S2x2x2x2x2x2x2x2
  transposes_S2x2x2x2x2x2x2x2_S2x2x2x2x2x2x2x2_2_0_1_3_4_5_6_7 : S2x2x2x2x2x2x2x2.Transposes [2, 0, 1, 3, 4, 5, 6, 7] S2x2x2x2x2x2x2x2
  transposes_S2x2x2x2x2x2x2x2_S2x2x2x2x2x2x2x2_3_0_1_2_4_5_6_7 : S2x2x2x2x2x2x2x2.Transposes [3, 0, 1, 2, 4, 5, 6, 7] S2x2x2x2x2x2x2x2
  transposes_S2x2x2x2x2x2x2x2_S2x2x2x2x2x2x2x2_4_0_1_2_3_5_6_7 : S2x2x2x2x2x2x2x2.Transposes [4, 0, 1, 2, 3, 5, 6, 7] S2x2x2x2x2x2x2x2
  transposes_S2x2x2x2x2x2x2x2_S2x2x2x2x2x2x2x2_5_0_1_2_3_4_6_7 : S2x2x2x2x2x2x2x2.Transposes [5, 0, 1, 2, 3, 4, 6, 7] S2x2x2x2x2x2x2x2
  transposes_S2x2x2x2x2x2x2x2_S2x2x2x2x2x2x2x2_6_0_1_2_3_4_5_7 : S2x2x2x2x2x2x2x2.Transposes [6, 0, 1, 2, 3, 4, 5, 7] S2x2x2x2x2x2x2x2
  transposes_S2x2x2x2x2x2x2x2_S2x2x2x2x2x2x2x2_7_0_1_2_3_4_5_6 : S2x2x2x2x2x2x2x2.Transposes [7, 0, 1, 2, 3, 4, 5, 6] S2x2x2x2x2x2x2x2
  bcast_S_S1 : S_.BroadcastsInDim S1 (![] : Fin 0 → Fin S1.rank)
  concatenates_S1_S1_S1_S1_S1_S1_S1_S1_S8_d0 : Shape.Concatenates [S1, S1, S1, S1, S1, S1, S1, S1] S8 0
  transposes_S2048x8_S8x2048_1_0 : S2048x8.Transposes [1, 0] S8x2048
  transposes_S512x2048_S2048x512_1_0 : S512x2048.Transposes [1, 0] S2048x512
  shapeCasts_S8_S1x8 : S8.ShapeCasts S1x8
  shapeCasts_S2048_S1x2048 : S2048.ShapeCasts S1x2048
  shapeCasts_S512_S1x512 : S512.ShapeCasts S1x512
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  shapeCasts_S1x1x512_S1x1x512 : S1x1x512.ShapeCasts S1x1x512
  broadcasts_S1x1x512_S4x2048x512 : S1x1x512.Broadcasts S4x2048x512
  inb_S4x2048x512_S4x2048x512_0_0_0 : ∀ a, (![0, 0, 0] : Fin 3 → Nat) a + S4x2048x512.size a ≤ S4x2048x512.size a
  h_S4x2048x512 : 0 < S4x2048x512.numel
  dot_S1x8_S8x2048_S1x2048_1_0_0_1_n_n_wf : DotDims.WF S1x8 S8x2048 S1x2048 [1] [0] [0] [1] [] []
  dot_S1x2048_S2048x512_S1x512_1_0_0_1_n_n_wf : DotDims.WF S1x2048 S2048x512 S1x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x8.size a ≤ S1x8.size a
  hwx0_0 : ∀ i : grid0.Coords, EltTy.bits .f32 = 32 ∨ (Rect.block (s := S1x8) S1x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x2048.size a
  hwx0_1 : ∀ i : grid0.Coords, EltTy.bits .f32 = 32 ∨ (Rect.block (s := S8x2048) S8x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .f32 = 32 ∨ (Rect.block (s := S2048x512) S2048x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x2048x512.size a ≤ S4x8192x512.size a
  hwx0_5 : ∀ i : grid0.Coords, EltTy.bits .f32 = 32 ∨ (Rect.block (s := S4x8192x512) S4x2048x512.size (cc0_transform_5 i) (hinb0_5 i)).WholeWords (EltTy.packing .f32)

variable [Facts₀]

def dot_S1x8_S8x2048_S1x2048_1_0_0_1_n_n : DotDims S1x8 S8x2048 S1x2048 where
  lhsContracting := [1]
  rhsContracting := [0]
  lhsNonContracting := [0]
  rhsNonContracting := [1]
  lhsBatch := []
  rhsBatch := []
  wf := dot_S1x8_S8x2048_S1x2048_1_0_0_1_n_n_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf

abbrev win0_0 : Pipeline.Window sig grid0 :=
  Pipeline.Window.ofSpec (Memref.whole main_v82) S1x8.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v80) S8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v83) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v81) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v84) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v85) S4x2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8192x512 : Shape := ⟨3, ![4, 8192, 512]⟩
abbrev S256x256 : Shape := ⟨2, ![256, 256]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S256x1 : Shape := ⟨2, ![256, 1]⟩
abbrev S256 : Shape := ⟨1, ![256]⟩
abbrev S2x2x2x2x2x2x2x2 : Shape := ⟨8, ![2, 2, 2, 2, 2, 2, 2, 2]⟩
abbrev S2x128 : Shape := ⟨2, ![2, 128]⟩
abbrev S_ : Shape := ⟨0, ![]⟩
abbrev S2 : Shape := ⟨1, ![2]⟩
abbrev S1 : Shape := ⟨1, ![1]⟩
abbrev S8 : Shape := ⟨1, ![8]⟩
abbrev S4x8192x8 : Shape := ⟨3, ![4, 8192, 8]⟩
abbrev S4x8192x2048 : Shape := ⟨3, ![4, 8192, 2048]⟩
abbrev S1x1x2048 : Shape := ⟨3, ![1, 1, 2048]⟩
abbrev S1x1x512 : Shape := ⟨3, ![1, 1, 512]⟩

abbrev nBuf : Space → Nat
  | .hbm => 107
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S256x256, .f32⟩
  | .hbm, ⟨2, _⟩ => ⟨S256x256, .f32⟩
  | .hbm, ⟨3, _⟩ => ⟨S2048x8, .f32⟩
  | .hbm, ⟨4, _⟩ => ⟨S2048, .f32⟩
  | .hbm, ⟨5, _⟩ => ⟨S512x2048, .f32⟩
  | .hbm, ⟨6, _⟩ => ⟨S512, .f32⟩
  | .hbm, ⟨7, _⟩ => ⟨S256x1, .f32⟩
  | .hbm, ⟨8, _⟩ => ⟨S256, .f32⟩
  | .hbm, ⟨9, _⟩ => ⟨S256x1, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S2x2x2x2x2x2x2x2, .f32⟩
  | .hbm, ⟨15, _⟩ => ⟨S2x128, .f32⟩
  | .hbm, ⟨16, _⟩ => ⟨S_, .f32⟩
  | .hbm, ⟨17, _⟩ => ⟨S2, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S_, .f32⟩
  | .hbm, ⟨23, _⟩ => ⟨S2x2x2x2x2x2x2x2, .f32⟩
  | .hbm, ⟨24, _⟩ => ⟨S2x128, .f32⟩
  | .hbm, ⟨25, _⟩ => ⟨S_, .f32⟩
  | .hbm, ⟨26, _⟩ => ⟨S2, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S_, .f32⟩
  | .hbm, ⟨32, _⟩ => ⟨S2x2x2x2x2x2x2x2, .f32⟩
  | .hbm, ⟨33, _⟩ => ⟨S2x128, .f32⟩
  | .hbm, ⟨34, _⟩ => ⟨S_, .f32⟩
  | .hbm, ⟨35, _⟩ => ⟨S2, .f32⟩
  | .hbm, ⟨36, _⟩ => ⟨S1, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S_, .f32⟩
  | .hbm, ⟨41, _⟩ => ⟨S2x2x2x2x2x2x2x2, .f32⟩
  | .hbm, ⟨42, _⟩ => ⟨S2x128, .f32⟩
  | .hbm, ⟨43, _⟩ => ⟨S_, .f32⟩
  | .hbm, ⟨44, _⟩ => ⟨S2, .f32⟩
  | .hbm, ⟨45, _⟩ => ⟨S1, .f32⟩
  | .hbm, ⟨46, _⟩ => ⟨S_, .f32⟩
  | .hbm, ⟨47, _⟩ => ⟨S1, .f32⟩
  | .hbm, ⟨48, _⟩ => ⟨S_, .f32⟩
  | .hbm, ⟨49, _⟩ => ⟨S_, .f32⟩
  | .hbm, ⟨50, _⟩ => ⟨S2x2x2x2x2x2x2x2, .f32⟩
  | .hbm, ⟨51, _⟩ => ⟨S2x128, .f32⟩
  | .hbm, ⟨52, _⟩ => ⟨S_, .f32⟩
  | .hbm, ⟨53, _⟩ => ⟨S2, .f32⟩
  | .hbm, ⟨54, _⟩ => ⟨S1, .f32⟩
  | .hbm, ⟨55, _⟩ => ⟨S_, .f32⟩
  | .hbm, ⟨56, _⟩ => ⟨S1, .f32⟩
  | .hbm, ⟨57, _⟩ => ⟨S_, .f32⟩
  | .hbm, ⟨58, _⟩ => ⟨S_, .f32⟩
  | .hbm, ⟨59, _⟩ => ⟨S2x2x2x2x2x2x2x2, .f32⟩
  | .hbm, ⟨60, _⟩ => ⟨S2x128, .f32⟩
  | .hbm, ⟨61, _⟩ => ⟨S_, .f32⟩
  | .hbm, ⟨62, _⟩ => ⟨S2, .f32⟩
  | .hbm, ⟨63, _⟩ => ⟨S1, .f32⟩
  | .hbm, ⟨64, _⟩ => ⟨S_, .f32⟩
  | .hbm, ⟨65, _⟩ => ⟨S1, .f32⟩
  | .hbm, ⟨66, _⟩ => ⟨S_, .f32⟩
  | .hbm, ⟨67, _⟩ => ⟨S_, .f32⟩
  | .hbm, ⟨68, _⟩ => ⟨S2x2x2x2x2x2x2x2, .f32⟩
  | .hbm, ⟨69, _⟩ => ⟨S2x128, .f32⟩
  | .hbm, ⟨70, _⟩ => ⟨S_, .f32⟩
  | .hbm, ⟨71, _⟩ => ⟨S2, .f32⟩
  | .hbm, ⟨72, _⟩ => ⟨S1, .f32⟩
  | .hbm, ⟨73, _⟩ => ⟨S_, .f32⟩
  | .hbm, ⟨74, _⟩ => ⟨S1, .f32⟩
  | .hbm, ⟨75, _⟩ => ⟨S_, .f32⟩
  | .hbm, ⟨76, _⟩ => ⟨S_, .f32⟩
  | .hbm, ⟨77, _⟩ => ⟨S2x2x2x2x2x2x2x2, .f32⟩
  | .hbm, ⟨78, _⟩ => ⟨S2x128, .f32⟩
  | .hbm, ⟨79, _⟩ => ⟨S_, .f32⟩
  | .hbm, ⟨80, _⟩ => ⟨S2, .f32⟩
  | .hbm, ⟨81, _⟩ => ⟨S1, .f32⟩
  | .hbm, ⟨82, _⟩ => ⟨S_, .f32⟩
  | .hbm, ⟨83, _⟩ => ⟨S1, .f32⟩
  | .hbm, ⟨84, _⟩ => ⟨S_, .f32⟩
  | .hbm, ⟨85, _⟩ => ⟨S_, .f32⟩
  | .hbm, ⟨86, _⟩ => ⟨S1, .f32⟩
  | .hbm, ⟨87, _⟩ => ⟨S1, .f32⟩
  | .hbm, ⟨88, _⟩ => ⟨S1, .f32⟩
  | .hbm, ⟨89, _⟩ => ⟨S1, .f32⟩
  | .hbm, ⟨90, _⟩ => ⟨S1, .f32⟩
  | .hbm, ⟨91, _⟩ => ⟨S1, .f32⟩
  | .hbm, ⟨92, _⟩ => ⟨S1, .f32⟩
  | .hbm, ⟨93, _⟩ => ⟨S1, .f32⟩
  | .hbm, ⟨94, _⟩ => ⟨S8, .f32⟩
  | .hbm, ⟨95, _⟩ => ⟨S4x8192x8, .f32⟩
  | .hbm, ⟨96, _⟩ => ⟨S4x8192x2048, .f32⟩
  | .hbm, ⟨97, _⟩ => ⟨S1x1x2048, .f32⟩
  | .hbm, ⟨98, _⟩ => ⟨S4x8192x2048, .f32⟩
  | .hbm, ⟨99, _⟩ => ⟨S4x8192x2048, .f32⟩
  | .hbm, ⟨100, _⟩ => ⟨S_, .f32⟩
  | .hbm, ⟨101, _⟩ => ⟨S4x8192x2048, .f32⟩
  | .hbm, ⟨102, _⟩ => ⟨S4x8192x2048, .f32⟩
  | .hbm, ⟨103, _⟩ => ⟨S4x8192x512, .f32⟩
  | .hbm, ⟨104, _⟩ => ⟨S1x1x512, .f32⟩
  | .hbm, ⟨105, _⟩ => ⟨S4x8192x512, .f32⟩
  | .hbm, ⟨106, _⟩ => ⟨S4x8192x512, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_6 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_call0_cst : Ref sig .tc := ⟨.hbm, 100, rfl⟩
abbrev main_call0_v0 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩

abbrev nD : Nat := 1
abbrev τ : Topo := Topo.v7x

variable {F : FTy → Type} [FloatOps F]

class Facts₀ : Prop where
  slices_S256x256_S256x1_0_0 : S256x256.Slices ![0, 0] S256x1
  shapeCasts_S256x1_S256 : S256x1.ShapeCasts S256
  shapeCasts_S256_S2x2x2x2x2x2x2x2 : S256.ShapeCasts S2x2x2x2x2x2x2x2
  shapeCasts_S2x2x2x2x2x2x2x2_S2x128 : S2x2x2x2x2x2x2x2.ShapeCasts S2x128
  reducesTo_S2x128_S2_d1 : S2x128.ReducesTo [1] S2
  h_S_ : 0 < S_.numel
  slices_S2_S1_0 : S2.Slices ![0] S1
  shapeCasts_S1_S_ : S1.ShapeCasts S_
  slices_S2_S1_1 : S2.Slices ![1] S1
  transposes_S2x2x2x2x2x2x2x2_S2x2x2x2x2x2x2x2_1_0_2_3_4_5_6_7 : S2x2x2x2x2x2x2x2.Transposes [1, 0, 2, 3, 4, 5, 6, 7] S2x2x2x2x2x2x2x2
  transposes_S2x2x2x2x2x2x2x2_S2x2x2x2x2x2x2x2_2_0_1_3_4_5_6_7 : S2x2x2x2x2x2x2x2.Transposes [2, 0, 1, 3, 4, 5, 6, 7] S2x2x2x2x2x2x2x2
  transposes_S2x2x2x2x2x2x2x2_S2x2x2x2x2x2x2x2_3_0_1_2_4_5_6_7 : S2x2x2x2x2x2x2x2.Transposes [3, 0, 1, 2, 4, 5, 6, 7] S2x2x2x2x2x2x2x2
  transposes_S2x2x2x2x2x2x2x2_S2x2x2x2x2x2x2x2_4_0_1_2_3_5_6_7 : S2x2x2x2x2x2x2x2.Transposes [4, 0, 1, 2, 3, 5, 6, 7] S2x2x2x2x2x2x2x2
  transposes_S2x2x2x2x2x2x2x2_S2x2x2x2x2x2x2x2_5_0_1_2_3_4_6_7 : S2x2x2x2x2x2x2x2.Transposes [5, 0, 1, 2, 3, 4, 6, 7] S2x2x2x2x2x2x2x2
  transposes_S2x2x2x2x2x2x2x2_S2x2x2x2x2x2x2x2_6_0_1_2_3_4_5_7 : S2x2x2x2x2x2x2x2.Transposes [6, 0, 1, 2, 3, 4, 5, 7] S2x2x2x2x2x2x2x2
  transposes_S2x2x2x2x2x2x2x2_S2x2x2x2x2x2x2x2_7_0_1_2_3_4_5_6 : S2x2x2x2x2x2x2x2.Transposes [7, 0, 1, 2, 3, 4, 5, 6] S2x2x2x2x2x2x2x2
  bcast_S_S1 : S_.BroadcastsInDim S1 (![] : Fin 0 → Fin S1.rank)
  concatenates_S1_S1_S1_S1_S1_S1_S1_S1_S8_d0 : Shape.Concatenates [S1, S1, S1, S1, S1, S1, S1, S1] S8 0
  bcast_S8_S4x8192x8_2 : S8.BroadcastsInDim S4x8192x8 (![2] : Fin 1 → Fin S4x8192x8.rank)
  bcast_S2048_S1x1x2048_2 : S2048.BroadcastsInDim S1x1x2048 (![2] : Fin 1 → Fin S1x1x2048.rank)
  bcast_S1x1x2048_S4x8192x2048_0_1_2 : S1x1x2048.BroadcastsInDim S4x8192x2048 (![0, 1, 2] : Fin 3 → Fin S4x8192x2048.rank)
  bcast_S_S4x8192x2048 : S_.BroadcastsInDim S4x8192x2048 (![] : Fin 0 → Fin S4x8192x2048.rank)
  bcast_S512_S1x1x512_2 : S512.BroadcastsInDim S1x1x512 (![2] : Fin 1 → Fin S1x1x512.rank)
  bcast_S1x1x512_S4x8192x512_0_1_2 : S1x1x512.BroadcastsInDim S4x8192x512 (![0, 1, 2] : Fin 3 → Fin S4x8192x512.rank)
  dot_S4x8192x8_S2048x8_S4x8192x2048_2_1_01_0_n_n_wf : DotDims.WF S4x8192x8 S2048x8 S4x8192x2048 [2] [1] [0, 1] [0] [] []
  dot_S4x8192x2048_S512x2048_S4x8192x512_2_1_01_0_n_n_wf : DotDims.WF S4x8192x2048 S512x2048 S4x8192x512 [2] [1] [0, 1] [0] [] []

variable [Facts₀]

def dot_S4x8192x8_S2048x8_S4x8192x2048_2_1_01_0_n_n : DotDims S4x8192x8 S2048x8 S4x8192x2048 where
  lhsContracting := [2]
  rhsContracting := [1]
  lhsNonContracting := [0, 1]
  rhsNonContracting := [0]
  lhsBatch := []
  rhsBatch := []
  wf := dot_S4x8192x8_S2048x8_S4x8192x2048_2_1_01_0_n_n_wf
def dot_S4x8192x2048_S512x2048_S4x8192x512_2_1_01_0_n_n : DotDims S4x8192x2048 S512x2048 S4x8192x512 where
  lhsContracting := [2]
  rhsContracting := [1]
  lhsNonContracting := [0, 1]
  rhsNonContracting := [0]
  lhsBatch := []
  rhsBatch := []
  wf := dot_S4x8192x2048_S512x2048_S4x8192x512_2_1_01_0_n_n_wf

class Facts : Prop extends Facts₀ where

variable [Facts]
-- ==== Proof.FrameKernel.lean ====
/-
  The frame of `Kernel`: the program runs to its end on every weakly fair schedule, faults nowhere, and leaves its
  seven argument arrays as it found them.

  @main is a straight line of host operations followed by one pipelined region on a grid of four points. The host
  line writes only intermediate buffers, so every argument array reaches the region unchanged. Of the region's six
  windows five are inputs whose block is their whole array at block index zero at every point: the body finds each
  of them holding that array whether or not the point fetched it. The sixth is the output, written back at every
  point; the body overwrites its whole staging block with one value computed from the five inputs, so what the
  block held before (which the body also loads, and ignores) does not matter. The region invariant is the plain
  one: the scoped rest and the generator register, untouched.
-/
import proofs.«400961_j65481071405464_3_alg».proof.Proof.Gen.Kernel.Launch
import proofs.«400961_j65481071405464_3_alg».proof.Proof.Gen.Kernel.Skeleton
import proofs.«400961_j65481071405464_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the host line. -/
abbrev entryVal (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host line and then the region, entered at `entryVal`. -/
theorem main_to_region (𝒱₀ : Variants) :
    Pipeline.HMain (Ix := Unit) (Name := ℕ) (U := UR sig nD τ) (Lvl := ℕ) cfgs 0 defs₀ 𝒱₀ m (main (F := F)) (entryVal m) :=
  Pipeline.hmain_prefix cfgs 0 defs₀ 𝒱₀ m main hostOps0 hostOps0_sub hostOps0_fresh main_chain

/-- A reference no host operation writes reaches the region as launched. Every operation of the line writes
    exactly its result buffer, which is an intermediate value of @main and never an argument. -/
theorem entry_of_not_written (c : Dev nD) (r : Ref sig .tc)
    (h : ∀ op ∈ (hostOps0 : List (HloOp τ sig (Elt F))), (Proc.devRef (τ := τ) .tc r) ∉ op.writes) :
    entryVal m c r = m ((c : Thread nD τ).loc r) :=
  StableHlo.after_of_forall_not_mem (b := Proc.devRef .tc r) _ _ h

theorem entry_arg0 (c : Dev nD) : entryVal m c main_arg0 = m ((c : Thread nD τ).loc main_arg0) :=
  entry_of_not_written m c main_arg0 (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem entry_arg1 (c : Dev nD) : entryVal m c main_arg1 = m ((c : Thread nD τ).loc main_arg1) :=
  entry_of_not_written m c main_arg1 (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem entry_arg2 (c : Dev nD) : entryVal m c main_arg2 = m ((c : Thread nD τ).loc main_arg2) :=
  entry_of_not_written m c main_arg2 (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem entry_arg3 (c : Dev nD) : entryVal m c main_arg3 = m ((c : Thread nD τ).loc main_arg3) :=
  entry_of_not_written m c main_arg3 (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem entry_arg4 (c : Dev nD) : entryVal m c main_arg4 = m ((c : Thread nD τ).loc main_arg4) :=
  entry_of_not_written m c main_arg4 (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem entry_arg5 (c : Dev nD) : entryVal m c main_arg5 = m ((c : Thread nD τ).loc main_arg5) :=
  entry_of_not_written m c main_arg5 (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem entry_arg6 (c : Dev nD) : entryVal m c main_arg6 = m ((c : Thread nD τ).loc main_arg6) :=
  entry_of_not_written m c main_arg6 (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryVal m c (Pipeline.arrRef spec0 w))

/-- Input window 0: whatever proof data has the region-entry arrays and leaves the block in place finds, at every
    point, the window's staging buffer holding its block (fetched there or not: the block index never moves). -/
theorem found_in0 {c : Dev nD} (dat : Dat τ (Elt F) Unit ℕ (UR sig nD τ) ℕ cfg0 c) (hA : dat.A 0 = entryVal m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1: whatever proof data has the region-entry arrays and leaves the block in place finds, at every
    point, the window's staging buffer holding its block (fetched there or not: the block index never moves). -/
theorem found_in1 {c : Dev nD} (dat : Dat τ (Elt F) Unit ℕ (UR sig nD τ) ℕ cfg0 c) (hA : dat.A 1 = entryVal m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2: whatever proof data has the region-entry arrays and leaves the block in place finds, at every
    point, the window's staging buffer holding its block (fetched there or not: the block index never moves). -/
theorem found_in2 {c : Dev nD} (dat : Dat τ (Elt F) Unit ℕ (UR sig nD τ) ℕ cfg0 c) (hA : dat.A 2 = entryVal m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3: whatever proof data has the region-entry arrays and leaves the block in place finds, at every
    point, the window's staging buffer holding its block (fetched there or not: the block index never moves). -/
theorem found_in3 {c : Dev nD} (dat : Dat τ (Elt F) Unit ℕ (UR sig nD τ) ℕ cfg0 c) (hA : dat.A 3 = entryVal m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4: whatever proof data has the region-entry arrays and leaves the block in place finds, at every
    point, the window's staging buffer holding its block (fetched there or not: the block index never moves). -/
theorem found_in4 {c : Dev nD} (dat : Dat τ (Elt F) Unit ℕ (UR sig nD τ) ℕ cfg0 c) (hA : dat.A 4 = entryVal m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a run to the region's post -/

/-- None of the seven arguments is a window's array, so the region's post returns each at its region-entry contents,
    which are the launch contents. -/
theorem frame_from_run (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (entryVal m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_arg0 (Pipeline.mem_restRefs_of main_arg0 (by decide) (by decide))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c)⟩) h

/-! ## The body's accesses: each the whole of its buffer -/

abbrev rZ : Rect S1x8 := Rect.unit (s := S1x8) ![0, 0] S1x8.size inb_S1x8_S1x8_0_0
abbrev rW1 : Rect S8x2048 := Rect.unit (s := S8x2048) ![0, 0] S8x2048.size inb_S8x2048_S8x2048_0_0
abbrev rB1 : Rect S1x2048 := Rect.unit (s := S1x2048) ![0, 0] S1x2048.size inb_S1x2048_S1x2048_0_0
abbrev rW2 : Rect S2048x512 := Rect.unit (s := S2048x512) ![0, 0] S2048x512.size inb_S2048x512_S2048x512_0_0
abbrev rB2 : Rect S1x512 := Rect.unit (s := S1x512) ![0, 0] S1x512.size inb_S1x512_S1x512_0_0
abbrev rOut : Rect S4x2048x512 := Rect.unit (s := S4x2048x512) ![0, 0, 0] S4x2048x512.size inb_S4x2048x512_S4x2048x512_0_0_0

/-! ## What the body leaves in the output window's buffer -/

/-- The output block after the body: its one store, of the value the body computes from the five loaded blocks. -/
def outBlock (z : Vec F S1x8 .f32) (w1 : Vec F S8x2048 .f32) (b1 : Vec F S1x2048 .f32) (w2 : Vec F S2048x512 .f32) (b2 : Vec F S1x512 .f32) :
    Vec F S4x2048x512 .f32 :=
  View.canon [⟨rOut, k0_pay1 (View.ld z rZ) (View.ld w1 rW1) (View.ld b1 rB1) (View.ld w2 rW2) (View.ld b2 rB2)⟩]

/-- That store covers the buffer. -/
theorem outBlock_cover (p : Vec F S4x2048x512 .f32) (y : S4x2048x512.Idx) :
    ∃ pc ∈ ([⟨rOut, p⟩] : List (View.Piece (Elt F) S4x2048x512 .f32)), y ∈ pc.1.set :=
  View.cover_of_tiled [⟨rOut, p⟩] S4x2048x512.size (by rfl) y

/-! ## The body's triple -/

set_option maxHeartbeats 1000000 in
/-- On whole staging memrefs, the inputs' at contents `z … b2` and the output's at anything, the body runs to its
    continuation with the inputs as they were and the output at `outBlock` of them. -/
theorem body_triple (c : Dev nD) (E : Set ℕ) (i : grid0.Coords)
    (a1 : Memref sig .tc .vmem S1x8 .f32) (h1 : a1.IsWhole) (a2 : Memref sig .tc .vmem S8x2048 .f32) (h2 : a2.IsWhole)
    (a3 : Memref sig .tc .vmem S1x2048 .f32) (h3 : a3.IsWhole) (a4 : Memref sig .tc .vmem S2048x512 .f32) (h4 : a4.IsWhole)
    (a5 : Memref sig .tc .vmem S1x512 .f32) (h5 : a5.IsWhole) (a6 : Memref sig .tc .vmem S4x2048x512 .f32) (h6 : a6.IsWhole)
    (z : Vec F S1x8 .f32) (w1 : Vec F S8x2048 .f32) (b1 : Vec F S1x2048 .f32) (w2 : Vec F S2048x512 .f32) (b2 : Vec F S1x512 .f32)
    (K : PUnit → sProp 𝕄) :
    iprop(owns (c : Thread nD τ) a1 fullShare z ∗ owns (c : Thread nD τ) a2 fullShare w1 ∗ owns (c : Thread nD τ) a3 fullShare b1
        ∗ owns (c : Thread nD τ) a4 fullShare w2 ∗ owns (c : Thread nD τ) a5 fullShare b2
        ∗ (∃ d, owns (c : Thread nD τ) a6 fullShare d)
        ∗ (iprop(owns (c : Thread nD τ) a1 fullShare z ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (outBlock z w1 b1 w2 b2)) -∗ K ⟨⟩))
      ⊢ wp frame (wpE (defs₀ (F := F)) Variants.none c none) E (cc0__fused_kernel i a1 h1 a2 h2 a3 h3 a4 h4 a5 h5 a6 h6) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outBlock_cover _)

/-! ## The pipeline's proof data -/

/-- On core `c`: the arrays as the region finds them; after the body at point `t` each input's buffer at its block
    and the output's at `outBlock` of the input blocks; the plain invariant; nothing owed; full shares. -/
def pdata (_ : Fin 1) (c : Dev nD) : Dat τ (Elt F) Unit ℕ (UR sig nD τ) ℕ cfg0 c where
  A w := entryVal m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => outBlock (blockAt m c 0 t) (blockAt m c 1 t) (blockAt m c 2 t) (blockAt m c 3 t) (blockAt m c 4 t)
  Φ _ := Pipeline.ΦA spec0 c
  q _ := fullShare
  owed _ := 0

theorem pdata_A (c : Dev nD) (w : Fin cfg0.W) : (pdata m 0 c).A w = entryVal m c (Pipeline.arrRef spec0 w) := by
  dsimp only [pdata]

theorem pdata_after0 (c : Dev nD) (t : Fin cfg0.N) : (pdata m 0 c).after 0 t = blockAt m c 0 t := by dsimp only [pdata]
theorem pdata_after1 (c : Dev nD) (t : Fin cfg0.N) : (pdata m 0 c).after 1 t = blockAt m c 1 t := by dsimp only [pdata]
theorem pdata_after2 (c : Dev nD) (t : Fin cfg0.N) : (pdata m 0 c).after 2 t = blockAt m c 2 t := by dsimp only [pdata]
theorem pdata_after3 (c : Dev nD) (t : Fin cfg0.N) : (pdata m 0 c).after 3 t = blockAt m c 3 t := by dsimp only [pdata]
theorem pdata_after4 (c : Dev nD) (t : Fin cfg0.N) : (pdata m 0 c).after 4 t = blockAt m c 4 t := by dsimp only [pdata]
theorem pdata_after5 (c : Dev nD) (t : Fin cfg0.N) : (pdata m 0 c).after 5 t
    = outBlock (blockAt m c 0 t) (blockAt m c 1 t) (blockAt m c 2 t) (blockAt m c 3 t) (blockAt m c 4 t) := by dsimp only [pdata]

theorem found0 (c : Dev nD) (t : Fin cfg0.N) (d) : (pdata m 0 c).before 0 t d = blockAt m c 0 t :=
  found_in0 m (pdata m 0 c) (pdata_A m c 0) (pdata_after0 m c) t d
theorem found1 (c : Dev nD) (t : Fin cfg0.N) (d) : (pdata m 0 c).before 1 t d = blockAt m c 1 t :=
  found_in1 m (pdata m 0 c) (pdata_A m c 1) (pdata_after1 m c) t d
theorem found2 (c : Dev nD) (t : Fin cfg0.N) (d) : (pdata m 0 c).before 2 t d = blockAt m c 2 t :=
  found_in2 m (pdata m 0 c) (pdata_A m c 2) (pdata_after2 m c) t d
theorem found3 (c : Dev nD) (t : Fin cfg0.N) (d) : (pdata m 0 c).before 3 t d = blockAt m c 3 t :=
  found_in3 m (pdata m 0 c) (pdata_A m c 3) (pdata_after3 m c) t d
theorem found4 (c : Dev nD) (t : Fin cfg0.N) (d) : (pdata m 0 c).before 4 t d = blockAt m c 4 t :=
  found_in4 m (pdata m 0 c) (pdata_A m c 4) (pdata_after4 m c) t d

/-! ## The body obligation, at a generic point -/

/-- What the body is called with at point `t`, the windows one by one, -/
def pointPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d)))

/-- and what it returns. -/
def pointPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t))

/-- The body at any point: the inputs' buffers hold their blocks, so the triple applies; the invariant and the
    core's debt pass through unread. -/
theorem body_at_point (c : Dev nD) (t : Fin cfg0.N) :
    pointPre m c t ⊢ wp frame (wpE (defs₀ (F := F)) Variants.none c none) Set.univ (bodyAt0 t) (fun _ => pointPost m c t) := by
  unfold pointPre pointPost bodyAt0
  simp only [found0, found1, found2, found3, found4]
  rw [show (pdata m 0 c).Φ t.succ = (pdata m 0 c).Φ t.castSucc from rfl,
    show (pdata m 0 c).owesAt () t.succ = (pdata m 0 c).owesAt () t.castSucc from rfl,
    pdata_after0, pdata_after1, pdata_after2, pdata_after3, pdata_after4, pdata_after5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (pdata (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates, and every final state has
    each window's array at what the write-backs leave and every other unscoped buffer as the region found it. -/
theorem run_region : θ_run defs (onTc (τ := τ) (main (F := F))) (s₀ m ρ) (Pipeline.FramePost cfgs (pdata m) 0 (entryVal m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := entryVal m) (hmain := main_to_region m Variants.none) (hA := pdata_A m) (hΦ := fun _ _ => rfl)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_from_run m ρ (pdata m) (run_region m ρ)

end Cert.Kernel.Hand

end
-- ==== Proof.FrameKernelIdeal.lean ====
/-
  The frame of `KernelIdeal`: the program runs to its end on every weakly fair schedule, faults nowhere, and leaves its
  seven argument arrays as it found them.

  @main is a straight line of host operations followed by one pipelined region on a grid of four points. The host
  line writes only intermediate buffers, so every argument array reaches the region unchanged. Of the region's six
  windows five are inputs whose block is their whole array at block index zero at every point: the body finds each
  of them holding that array whether or not the point fetched it. The sixth is the output, written back at every
  point; the body overwrites its whole staging block with one value computed from the five inputs, so what the
  block held before (which the body also loads, and ignores) does not matter. The region invariant is the plain
  one: the scoped rest and the generator register, untouched.
-/
import proofs.«400961_j65481071405464_3_alg».proof.Proof.Gen.KernelIdeal.Launch
import proofs.«400961_j65481071405464_3_alg».proof.Proof.Gen.KernelIdeal.Skeleton
import proofs.«400961_j65481071405464_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the host line. -/
abbrev entryVal (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host line and then the region, entered at `entryVal`. -/
theorem main_to_region (𝒱₀ : Variants) :
    Pipeline.HMain (Ix := Unit) (Name := ℕ) (U := UR sig nD τ) (Lvl := ℕ) cfgs 0 defs₀ 𝒱₀ m (main (F := F)) (entryVal m) :=
  Pipeline.hmain_prefix cfgs 0 defs₀ 𝒱₀ m main hostOps0 hostOps0_sub hostOps0_fresh main_chain

/-- A reference no host operation writes reaches the region as launched. Every operation of the line writes
    exactly its result buffer, which is an intermediate value of @main and never an argument. -/
theorem entry_of_not_written (c : Dev nD) (r : Ref sig .tc)
    (h : ∀ op ∈ (hostOps0 : List (HloOp τ sig (Elt F))), (Proc.devRef (τ := τ) .tc r) ∉ op.writes) :
    entryVal m c r = m ((c : Thread nD τ).loc r) :=
  StableHlo.after_of_forall_not_mem (b := Proc.devRef .tc r) _ _ h

theorem entry_arg0 (c : Dev nD) : entryVal m c main_arg0 = m ((c : Thread nD τ).loc main_arg0) :=
  entry_of_not_written m c main_arg0 (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem entry_arg1 (c : Dev nD) : entryVal m c main_arg1 = m ((c : Thread nD τ).loc main_arg1) :=
  entry_of_not_written m c main_arg1 (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem entry_arg2 (c : Dev nD) : entryVal m c main_arg2 = m ((c : Thread nD τ).loc main_arg2) :=
  entry_of_not_written m c main_arg2 (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem entry_arg3 (c : Dev nD) : entryVal m c main_arg3 = m ((c : Thread nD τ).loc main_arg3) :=
  entry_of_not_written m c main_arg3 (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem entry_arg4 (c : Dev nD) : entryVal m c main_arg4 = m ((c : Thread nD τ).loc main_arg4) :=
  entry_of_not_written m c main_arg4 (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem entry_arg5 (c : Dev nD) : entryVal m c main_arg5 = m ((c : Thread nD τ).loc main_arg5) :=
  entry_of_not_written m c main_arg5 (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
theorem entry_arg6 (c : Dev nD) : entryVal m c main_arg6 = m ((c : Thread nD τ).loc main_arg6) :=
  entry_of_not_written m c main_arg6 (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryVal m c (Pipeline.arrRef spec0 w))

/-- Input window 0: whatever proof data has the region-entry arrays and leaves the block in place finds, at every
    point, the window's staging buffer holding its block (fetched there or not: the block index never moves). -/
theorem found_in0 {c : Dev nD} (dat : Dat τ (Elt F) Unit ℕ (UR sig nD τ) ℕ cfg0 c) (hA : dat.A 0 = entryVal m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1: whatever proof data has the region-entry arrays and leaves the block in place finds, at every
    point, the window's staging buffer holding its block (fetched there or not: the block index never moves). -/
theorem found_in1 {c : Dev nD} (dat : Dat τ (Elt F) Unit ℕ (UR sig nD τ) ℕ cfg0 c) (hA : dat.A 1 = entryVal m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2: whatever proof data has the region-entry arrays and leaves the block in place finds, at every
    point, the window's staging buffer holding its block (fetched there or not: the block index never moves). -/
theorem found_in2 {c : Dev nD} (dat : Dat τ (Elt F) Unit ℕ (UR sig nD τ) ℕ cfg0 c) (hA : dat.A 2 = entryVal m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3: whatever proof data has the region-entry arrays and leaves the block in place finds, at every
    point, the window's staging buffer holding its block (fetched there or not: the block index never moves). -/
theorem found_in3 {c : Dev nD} (dat : Dat τ (Elt F) Unit ℕ (UR sig nD τ) ℕ cfg0 c) (hA : dat.A 3 = entryVal m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4: whatever proof data has the region-entry arrays and leaves the block in place finds, at every
    point, the window's staging buffer holding its block (fetched there or not: the block index never moves). -/
theorem found_in4 {c : Dev nD} (dat : Dat τ (Elt F) Unit ℕ (UR sig nD τ) ℕ cfg0 c) (hA : dat.A 4 = entryVal m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a run to the region's post -/

/-- None of the seven arguments is a window's array, so the region's post returns each at its region-entry contents,
    which are the launch contents. -/
theorem frame_from_run (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (entryVal m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_arg0 (Pipeline.mem_restRefs_of main_arg0 (by decide) (by decide))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c)⟩) h

/-! ## The body's accesses: each the whole of its buffer -/

abbrev rZ : Rect S1x8 := Rect.unit (s := S1x8) ![0, 0] S1x8.size inb_S1x8_S1x8_0_0
abbrev rW1 : Rect S8x2048 := Rect.unit (s := S8x2048) ![0, 0] S8x2048.size inb_S8x2048_S8x2048_0_0
abbrev rB1 : Rect S1x2048 := Rect.unit (s := S1x2048) ![0, 0] S1x2048.size inb_S1x2048_S1x2048_0_0
abbrev rW2 : Rect S2048x512 := Rect.unit (s := S2048x512) ![0, 0] S2048x512.size inb_S2048x512_S2048x512_0_0
abbrev rB2 : Rect S1x512 := Rect.unit (s := S1x512) ![0, 0] S1x512.size inb_S1x512_S1x512_0_0
abbrev rOut : Rect S4x2048x512 := Rect.unit (s := S4x2048x512) ![0, 0, 0] S4x2048x512.size inb_S4x2048x512_S4x2048x512_0_0_0

/-! ## What the body leaves in the output window's buffer -/

/-- The output block after the body: its one store, of the value the body computes from the five loaded blocks. -/
def outBlock (z : Vec F S1x8 .f32) (w1 : Vec F S8x2048 .f32) (b1 : Vec F S1x2048 .f32) (w2 : Vec F S2048x512 .f32) (b2 : Vec F S1x512 .f32) :
    Vec F S4x2048x512 .f32 :=
  View.canon [⟨rOut, k0_pay1 (View.ld z rZ) (View.ld w1 rW1) (View.ld b1 rB1) (View.ld w2 rW2) (View.ld b2 rB2)⟩]

/-- That store covers the buffer. -/
theorem outBlock_cover (p : Vec F S4x2048x512 .f32) (y : S4x2048x512.Idx) :
    ∃ pc ∈ ([⟨rOut, p⟩] : List (View.Piece (Elt F) S4x2048x512 .f32)), y ∈ pc.1.set :=
  View.cover_of_tiled [⟨rOut, p⟩] S4x2048x512.size (by rfl) y

/-! ## The body's triple -/

set_option maxHeartbeats 1000000 in
/-- On whole staging memrefs, the inputs' at contents `z … b2` and the output's at anything, the body runs to its
    continuation with the inputs as they were and the output at `outBlock` of them. -/
theorem body_triple (c : Dev nD) (E : Set ℕ) (i : grid0.Coords)
    (a1 : Memref sig .tc .vmem S1x8 .f32) (h1 : a1.IsWhole) (a2 : Memref sig .tc .vmem S8x2048 .f32) (h2 : a2.IsWhole)
    (a3 : Memref sig .tc .vmem S1x2048 .f32) (h3 : a3.IsWhole) (a4 : Memref sig .tc .vmem S2048x512 .f32) (h4 : a4.IsWhole)
    (a5 : Memref sig .tc .vmem S1x512 .f32) (h5 : a5.IsWhole) (a6 : Memref sig .tc .vmem S4x2048x512 .f32) (h6 : a6.IsWhole)
    (z : Vec F S1x8 .f32) (w1 : Vec F S8x2048 .f32) (b1 : Vec F S1x2048 .f32) (w2 : Vec F S2048x512 .f32) (b2 : Vec F S1x512 .f32)
    (K : PUnit → sProp 𝕄) :
    iprop(owns (c : Thread nD τ) a1 fullShare z ∗ owns (c : Thread nD τ) a2 fullShare w1 ∗ owns (c : Thread nD τ) a3 fullShare b1
        ∗ owns (c : Thread nD τ) a4 fullShare w2 ∗ owns (c : Thread nD τ) a5 fullShare b2
        ∗ (∃ d, owns (c : Thread nD τ) a6 fullShare d)
        ∗ (iprop(owns (c : Thread nD τ) a1 fullShare z ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (outBlock z w1 b1 w2 b2)) -∗ K ⟨⟩))
      ⊢ wp frame (wpE (defs₀ (F := F)) Variants.none c none) E (cc0__fused_kernel i a1 h1 a2 h2 a3 h3 a4 h4 a5 h5 a6 h6) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outBlock_cover _)

/-! ## The pipeline's proof data -/

/-- On core `c`: the arrays as the region finds them; after the body at point `t` each input's buffer at its block
    and the output's at `outBlock` of the input blocks; the plain invariant; nothing owed; full shares. -/
def pdata (_ : Fin 1) (c : Dev nD) : Dat τ (Elt F) Unit ℕ (UR sig nD τ) ℕ cfg0 c where
  A w := entryVal m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => outBlock (blockAt m c 0 t) (blockAt m c 1 t) (blockAt m c 2 t) (blockAt m c 3 t) (blockAt m c 4 t)
  Φ _ := Pipeline.ΦA spec0 c
  q _ := fullShare
  owed _ := 0

theorem pdata_A (c : Dev nD) (w : Fin cfg0.W) : (pdata m 0 c).A w = entryVal m c (Pipeline.arrRef spec0 w) := by
  dsimp only [pdata]

theorem pdata_after0 (c : Dev nD) (t : Fin cfg0.N) : (pdata m 0 c).after 0 t = blockAt m c 0 t := by dsimp only [pdata]
theorem pdata_after1 (c : Dev nD) (t : Fin cfg0.N) : (pdata m 0 c).after 1 t = blockAt m c 1 t := by dsimp only [pdata]
theorem pdata_after2 (c : Dev nD) (t : Fin cfg0.N) : (pdata m 0 c).after 2 t = blockAt m c 2 t := by dsimp only [pdata]
theorem pdata_after3 (c : Dev nD) (t : Fin cfg0.N) : (pdata m 0 c).after 3 t = blockAt m c 3 t := by dsimp only [pdata]
theorem pdata_after4 (c : Dev nD) (t : Fin cfg0.N) : (pdata m 0 c).after 4 t = blockAt m c 4 t := by dsimp only [pdata]
theorem pdata_after5 (c : Dev nD) (t : Fin cfg0.N) : (pdata m 0 c).after 5 t
    = outBlock (blockAt m c 0 t) (blockAt m c 1 t) (blockAt m c 2 t) (blockAt m c 3 t) (blockAt m c 4 t) := by dsimp only [pdata]

theorem found0 (c : Dev nD) (t : Fin cfg0.N) (d) : (pdata m 0 c).before 0 t d = blockAt m c 0 t :=
  found_in0 m (pdata m 0 c) (pdata_A m c 0) (pdata_after0 m c) t d
theorem found1 (c : Dev nD) (t : Fin cfg0.N) (d) : (pdata m 0 c).before 1 t d = blockAt m c 1 t :=
  found_in1 m (pdata m 0 c) (pdata_A m c 1) (pdata_after1 m c) t d
theorem found2 (c : Dev nD) (t : Fin cfg0.N) (d) : (pdata m 0 c).before 2 t d = blockAt m c 2 t :=
  found_in2 m (pdata m 0 c) (pdata_A m c 2) (pdata_after2 m c) t d
theorem found3 (c : Dev nD) (t : Fin cfg0.N) (d) : (pdata m 0 c).before 3 t d = blockAt m c 3 t :=
  found_in3 m (pdata m 0 c) (pdata_A m c 3) (pdata_after3 m c) t d
theorem found4 (c : Dev nD) (t : Fin cfg0.N) (d) : (pdata m 0 c).before 4 t d = blockAt m c 4 t :=
  found_in4 m (pdata m 0 c) (pdata_A m c 4) (pdata_after4 m c) t d

/-! ## The body obligation, at a generic point -/

/-- What the body is called with at point `t`, the windows one by one, -/
def pointPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d)))

/-- and what it returns. -/
def pointPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t))

/-- The body at any point: the inputs' buffers hold their blocks, so the triple applies; the invariant and the
    core's debt pass through unread. -/
theorem body_at_point (c : Dev nD) (t : Fin cfg0.N) :
    pointPre m c t ⊢ wp frame (wpE (defs₀ (F := F)) Variants.none c none) Set.univ (bodyAt0 t) (fun _ => pointPost m c t) := by
  unfold pointPre pointPost bodyAt0
  simp only [found0, found1, found2, found3, found4]
  rw [show (pdata m 0 c).Φ t.succ = (pdata m 0 c).Φ t.castSucc from rfl,
    show (pdata m 0 c).owesAt () t.succ = (pdata m 0 c).owesAt () t.castSucc from rfl,
    pdata_after0, pdata_after1, pdata_after2, pdata_after3, pdata_after4, pdata_after5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (pdata (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates, and every final state has
    each window's array at what the write-backs leave and every other unscoped buffer as the region found it. -/
theorem run_region : θ_run defs (onTc (τ := τ) (main (F := F))) (s₀ m ρ) (Pipeline.FramePost cfgs (pdata m) 0 (entryVal m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := entryVal m) (hmain := main_to_region m Variants.none) (hA := pdata_A m) (hΦ := fun _ _ => rfl)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_from_run m ρ (pdata m) (run_region m ρ)

end Cert.KernelIdeal.Hand

end
-- ==== Proof.Spec.lean ====
/-
  The function both programs compute, over the extended reals.

  From a vector `z` of eight numbers, a first layer `W1` (2048 × 8) with bias `b1`, and a second layer `W2`
  (512 × 2048) with bias `b2`:

    hidden f = max ((∑ q, z q · W1 f q) + b1 f) 0            (2048 numbers)
    outRow e = (∑ f, hidden f · W2 e f) + b2 e               (512 numbers)

  The result array of shape [4, 8192, 512] holds `outRow e` at every index whose last coordinate is `e`: the value does
  not depend on the first two coordinates. Nothing here needs the numbers to be finite: the two programs apply the same
  operations in the same order, and only the bookkeeping of indices differs.
-/
import Mathlib.Data.EReal.Inv
import Mathlib.Algebra.BigOperators.Fin

noncomputable section

namespace Cert.Spec

/-- The hidden layer: an affine map of `z` followed by the positive part. -/
def hidden (z : Fin 8 → EReal) (W1 : Fin 2048 → Fin 8 → EReal) (b1 : Fin 2048 → EReal) (f : Fin 2048) : EReal :=
  max ((∑ q : Fin 8, z q * W1 f q) + b1 f) 0

/-- The output row: an affine map of the hidden layer. -/
def outRow (z : Fin 8 → EReal) (W1 : Fin 2048 → Fin 8 → EReal) (b1 : Fin 2048 → EReal)
    (W2 : Fin 512 → Fin 2048 → EReal) (b2 : Fin 512 → EReal) (e : Fin 512) : EReal :=
  (∑ f : Fin 2048, hidden z W1 b1 f * W2 e f) + b2 e

/-- The output row depends only on its six arguments. -/
theorem outRow_congr {z z' : Fin 8 → EReal} {W1 W1' : Fin 2048 → Fin 8 → EReal} {b1 b1' : Fin 2048 → EReal}
    {W2 W2' : Fin 512 → Fin 2048 → EReal} {b2 b2' : Fin 512 → EReal} {e e' : Fin 512}
    (hz : z = z') (hW1 : W1 = W1') (hb1 : b1 = b1') (hW2 : W2 = W2') (hb2 : b2 = b2') (he : e = e') :
    outRow z W1 b1 W2 b2 e = outRow z' W1' b1' W2' b2' e' := by
  subst hz hW1 hb1 hW2 hb2 he; rfl

end Cert.Spec

end
-- ==== Proof.RefSpec.lean ====
/-
  The reference computes the specified function.

  Read one operation at a time, the reference's result at an index `i` of [4, 8192, 512] is: the second matrix product
  (a sum over the 2048 hidden units `k`, of the hidden layer at `(i 0, i 1, k)` times `W2` at `(i 2, k)`) plus the bias
  `b2` at `i 2`. The hidden layer at `(i 0, i 1, k)` is the larger of zero and the first product (a sum over the eight
  entries `q` of `z`, broadcast along the first two axes, times `W1` at `(k, q)`) plus `b1` at `k`. The broadcasts only
  re-index; the first two coordinates of `i` drop out, and what is left is `outRow` at `i 2`.
-/
import proofs.«400961_j65481071405464_3_alg».proof.Proof.Gen.ReferenceIdeal.Read
import proofs.«400961_j65481071405464_3_alg».proof.Proof.Spec
import Idealize.ShloMosaic.Lib.ValueIdx
import Idealize.ShloMosaic.PureOps.Ideal.Laws

noncomputable section

namespace Cert.ReferenceIdeal.RefSpec

open Cert.ReferenceIdeal Cert.ReferenceIdeal.Gen Cert.ReferenceIdeal.Read
open Idealize.ShloMosaic Idealize.ShloMosaic.TcCoe Idealize.ShloMosaic.ValueIdx

/-- The vector `z` as the reference computes it from the two 256 × 256 arguments: its stage, read at plain coordinates. -/
def zOf (x1 x2 : (⟨S256x256, .f32⟩ : BufTy).Contents (Elt Ideal)) (q : Fin 8) : EReal :=
  val_main_v79 (F := Ideal) x1 x2 (ix1 q)

/-- The reference's result at `i` is the specified output row at `i`'s last coordinate. -/
theorem result_apply (x1 x2 : (⟨S256x256, .f32⟩ : BufTy).Contents (Elt Ideal)) (x3 : (⟨S2048x8, .f32⟩ : BufTy).Contents (Elt Ideal))
    (x4 : (⟨S2048, .f32⟩ : BufTy).Contents (Elt Ideal)) (x5 : (⟨S512x2048, .f32⟩ : BufTy).Contents (Elt Ideal))
    (x6 : (⟨S512, .f32⟩ : BufTy).Contents (Elt Ideal)) (i : S4x8192x512.Idx) :
    val_main_v89 (F := Ideal) x1 x2 x3 x4 x5 x6 i
      = Cert.Spec.outRow (zOf x1 x2) (fun f q => x3 (ix2 f q)) (fun f => x4 (ix1 f)) (fun e f => x5 (ix2 e f)) (fun e => x6 (ix1 e))
          ⟨(i 2).val, (i 2).isLt⟩ := by
  have ez : ∀ (k : Fin 2048) (q : Fin 8), idx_main_v80 (lidx_main_v81 (lidx_main_v86 i k) q) = ix1 q :=
    fun k q => funext fun a => Fin.ext (by match a with | ⟨0, _⟩ => rfl)
  have ew1 : ∀ (k : Fin 2048) (q : Fin 8), ridx_main_v81 (lidx_main_v86 i k) q = ix2 k q :=
    fun k q => funext fun a => Fin.ext (by match a with | ⟨0, _⟩ => rfl | ⟨1, _⟩ => rfl)
  have eb1 : ∀ k : Fin 2048, idx_main_v82 (idx_main_v83 (lidx_main_v86 i k)) = ix1 k :=
    fun k => funext fun a => Fin.ext (by match a with | ⟨0, _⟩ => rfl)
  have ew2 : ∀ k : Fin 2048, ridx_main_v86 i k = ix2 (⟨(i 2).val, (i 2).isLt⟩ : Fin 512) k :=
    fun k => funext fun a => Fin.ext (by match a with | ⟨0, _⟩ => rfl | ⟨1, _⟩ => rfl)
  have eb2 : idx_main_v87 (idx_main_v88 i) = ix1 (⟨(i 2).val, (i 2).isLt⟩ : Fin 512) :=
    funext fun a => Fin.ext (by match a with | ⟨0, _⟩ => rfl)
  rw [val_main_v89_apply, val_main_v86_apply, val_main_v88_apply, val_main_v87_apply, eb2]
  unfold Cert.Spec.outRow Cert.Spec.hidden zOf
  refine congrArg₂ (· + ·) (Finset.sum_congr rfl fun k _ => ?_) rfl
  rw [val_main_v85_apply, val_main_v84_apply, val_main_v81_apply, val_main_v83_apply, val_main_v82_apply,
    val_main_call0_v0_apply, val_main_call0_cst_apply, eb1, ew2]
  refine congrArg₂ (· * ·) (congrArg₂ max (congrArg₂ (· + ·) (Finset.sum_congr rfl fun q _ => ?_) rfl) Ideal.ofBits_zero_f32) rfl
  rw [val_main_v80_apply, ez, ew1]

end Cert.ReferenceIdeal.RefSpec

end
-- ==== Proof.KPayload.lean ====
/-
  The value the kernel's body stores, read at an index.

  The body computes, from the five blocks it loads (`z` as a 1 × 8 row, the first layer transposed to 8 × 2048, its
  bias as a 1 × 2048 row, the second layer transposed to 2048 × 512, its bias as a 1 × 512 row):
  a 1 × 2048 row `max (z · W1ᵀ + b1) 0`, then a 1 × 512 row `h · W2ᵀ + b2`, and stores that row broadcast over
  a [4, 2048, 512] block. Both matrix products accumulate into zero, so each is a plain sum over the contracted axis.
  At block index `(p, r, e)` the stored value is therefore the specified output row at `e`, whatever `p` and `r`.
-/
import proofs.«400961_j65481071405464_3_alg».proof.Proof.Gen.KernelIdeal.Skeleton
import proofs.«400961_j65481071405464_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.TcCoe Idealize.ShloMosaic.ValueIdx

/-! ## The first product: a 1 × 8 row times an 8 × 2048 matrix -/

theorem lhs_first_0 (i : S1x2048.Idx) (q : dot_S1x8_S8x2048_S1x2048_1_0_0_1_n_n.contr.Idx) :
    (dot_S1x8_S8x2048_S1x2048_1_0_0_1_n_n.lhsIdx i q 0).val = (i 0).val := by
  unfold DotDims.lhsIdx
  rw [dif_neg (show ¬(0 : Fin S1x8.rank) ∈ dot_S1x8_S8x2048_S1x2048_1_0_0_1_n_n.lhsBatch by decide), dif_pos (show (0 : Fin S1x8.rank) ∈ dot_S1x8_S8x2048_S1x2048_1_0_0_1_n_n.lhsNonContracting by decide)]
  rfl
theorem lhs_first_1 (i : S1x2048.Idx) (q : dot_S1x8_S8x2048_S1x2048_1_0_0_1_n_n.contr.Idx) :
    (dot_S1x8_S8x2048_S1x2048_1_0_0_1_n_n.lhsIdx i q 1).val = (q ⟨0, by decide⟩).val :=
  dot_S1x8_S8x2048_S1x2048_1_0_0_1_n_n.lhsIdx_val_of_single rfl i q
theorem rhs_first_0 (i : S1x2048.Idx) (q : dot_S1x8_S8x2048_S1x2048_1_0_0_1_n_n.contr.Idx) :
    (dot_S1x8_S8x2048_S1x2048_1_0_0_1_n_n.rhsIdx i q 0).val = (q ⟨0, by decide⟩).val :=
  dot_S1x8_S8x2048_S1x2048_1_0_0_1_n_n.rhsIdx_val_of_single rfl i q
theorem rhs_first_1 (i : S1x2048.Idx) (q : dot_S1x8_S8x2048_S1x2048_1_0_0_1_n_n.contr.Idx) :
    (dot_S1x8_S8x2048_S1x2048_1_0_0_1_n_n.rhsIdx i q 1).val = (i 1).val := by
  unfold DotDims.rhsIdx
  rw [dif_neg (show ¬(1 : Fin S8x2048.rank) ∈ dot_S1x8_S8x2048_S1x2048_1_0_0_1_n_n.rhsBatch by decide), dif_pos (show (1 : Fin S8x2048.rank) ∈ dot_S1x8_S8x2048_S1x2048_1_0_0_1_n_n.rhsNonContracting by decide)]
  rfl

/-- Entry `f` of the first product is the sum over `q` of the row's entry `q` times the matrix's entry `(q, f)`. -/
theorem first_product_apply (z : FVec Ideal S1x8 .f32) (w1 : FVec Ideal S8x2048 .f32) (f : Fin 2048) :
    matmul dot_S1x8_S8x2048_S1x2048_1_0_0_1_n_n none z w1 (constant (F := Ideal) S1x2048 .f32 0x00000000#32) (ix2 (0 : Fin 1) f)
      = ∑ q : Fin 8, z (ix2 (0 : Fin 1) q) * w1 (ix2 q f) := by
  simp only [matmul]
  rw [Ideal.matmul_constant_zero_apply, ← Equiv.sum_comp (contrEquiv1 dot_S1x8_S8x2048_S1x2048_1_0_0_1_n_n 8 rfl rfl).symm]
  refine Finset.sum_congr rfl fun k _ => ?_
  have hk := contrEquiv1_symm_val dot_S1x8_S8x2048_S1x2048_1_0_0_1_n_n 8 rfl rfl k
  have el : dot_S1x8_S8x2048_S1x2048_1_0_0_1_n_n.lhsIdx (ix2 (0 : Fin 1) f) ((contrEquiv1 dot_S1x8_S8x2048_S1x2048_1_0_0_1_n_n 8 rfl rfl).symm k) = ix2 (0 : Fin 1) k := funext fun a => Fin.ext (by
    match a with
    | ⟨0, _⟩ => exact lhs_first_0 _ _
    | ⟨1, _⟩ => exact (lhs_first_1 _ _).trans hk)
  have er : dot_S1x8_S8x2048_S1x2048_1_0_0_1_n_n.rhsIdx (ix2 (0 : Fin 1) f) ((contrEquiv1 dot_S1x8_S8x2048_S1x2048_1_0_0_1_n_n 8 rfl rfl).symm k) = ix2 k f := funext fun a => Fin.ext (by
    match a with
    | ⟨0, _⟩ => exact (rhs_first_0 _ _).trans hk
    | ⟨1, _⟩ => exact rhs_first_1 _ _)
  rw [el, er]

/-! ## The second product: a 1 × 2048 row times a 2048 × 512 matrix -/

theorem lhs_second_0 (i : S1x512.Idx) (q : dot_S1x2048_S2048x512_S1x512_1_0_0_1_n_n.contr.Idx) :
    (dot_S1x2048_S2048x512_S1x512_1_0_0_1_n_n.lhsIdx i q 0).val = (i 0).val := by
  unfold DotDims.lhsIdx
  rw [dif_neg (show ¬(0 : Fin S1x2048.rank) ∈ dot_S1x2048_S2048x512_S1x512_1_0_0_1_n_n.lhsBatch by decide), dif_pos (show (0 : Fin S1x2048.rank) ∈ dot_S1x2048_S2048x512_S1x512_1_0_0_1_n_n.lhsNonContracting by decide)]
  rfl
theorem lhs_second_1 (i : S1x512.Idx) (q : dot_S1x2048_S2048x512_S1x512_1_0_0_1_n_n.contr.Idx) :
    (dot_S1x2048_S2048x512_S1x512_1_0_0_1_n_n.lhsIdx i q 1).val = (q ⟨0, by decide⟩).val :=
  dot_S1x2048_S2048x512_S1x512_1_0_0_1_n_n.lhsIdx_val_of_single rfl i q
theorem rhs_second_0 (i : S1x512.Idx) (q : dot_S1x2048_S2048x512_S1x512_1_0_0_1_n_n.contr.Idx) :
    (dot_S1x2048_S2048x512_S1x512_1_0_0_1_n_n.rhsIdx i q 0).val = (q ⟨0, by decide⟩).val :=
  dot_S1x2048_S2048x512_S1x512_1_0_0_1_n_n.rhsIdx_val_of_single rfl i q
theorem rhs_second_1 (i : S1x512.Idx) (q : dot_S1x2048_S2048x512_S1x512_1_0_0_1_n_n.contr.Idx) :
    (dot_S1x2048_S2048x512_S1x512_1_0_0_1_n_n.rhsIdx i q 1).val = (i 1).val := by
  unfold DotDims.rhsIdx
  rw [dif_neg (show ¬(1 : Fin S2048x512.rank) ∈ dot_S1x2048_S2048x512_S1x512_1_0_0_1_n_n.rhsBatch by decide), dif_pos (show (1 : Fin S2048x512.rank) ∈ dot_S1x2048_S2048x512_S1x512_1_0_0_1_n_n.rhsNonContracting by decide)]
  rfl

/-- Entry `e` of the second product is the sum over `f` of the row's entry `f` times the matrix's entry `(f, e)`. -/
theorem second_product_apply (h : FVec Ideal S1x2048 .f32) (w2 : FVec Ideal S2048x512 .f32) (e : Fin 512) :
    matmul dot_S1x2048_S2048x512_S1x512_1_0_0_1_n_n none h w2 (constant (F := Ideal) S1x512 .f32 0x00000000#32) (ix2 (0 : Fin 1) e)
      = ∑ f : Fin 2048, h (ix2 (0 : Fin 1) f) * w2 (ix2 f e) := by
  simp only [matmul]
  rw [Ideal.matmul_constant_zero_apply, ← Equiv.sum_comp (contrEquiv1 dot_S1x2048_S2048x512_S1x512_1_0_0_1_n_n 2048 rfl rfl).symm]
  refine Finset.sum_congr rfl fun k _ => ?_
  have hk := contrEquiv1_symm_val dot_S1x2048_S2048x512_S1x512_1_0_0_1_n_n 2048 rfl rfl k
  have el : dot_S1x2048_S2048x512_S1x512_1_0_0_1_n_n.lhsIdx (ix2 (0 : Fin 1) e) ((contrEquiv1 dot_S1x2048_S2048x512_S1x512_1_0_0_1_n_n 2048 rfl rfl).symm k) = ix2 (0 : Fin 1) k := funext fun a => Fin.ext (by
    match a with
    | ⟨0, _⟩ => exact lhs_second_0 _ _
    | ⟨1, _⟩ => exact (lhs_second_1 _ _).trans hk)
  have er : dot_S1x2048_S2048x512_S1x512_1_0_0_1_n_n.rhsIdx (ix2 (0 : Fin 1) e) ((contrEquiv1 dot_S1x2048_S2048x512_S1x512_1_0_0_1_n_n 2048 rfl rfl).symm k) = ix2 k e := funext fun a => Fin.ext (by
    match a with
    | ⟨0, _⟩ => exact (rhs_second_0 _ _).trans hk
    | ⟨1, _⟩ => exact rhs_second_1 _ _)
  rw [el, er]

/-! ## The stored value -/

/-- At block index `(p, r, e)` the body stores the specified output row at `e`, of the five loaded blocks read at plain
    coordinates (the two matrices with their coordinates swapped: the body is handed them transposed). -/
theorem stored_apply (z : Vec Ideal S1x8 .f32) (w1 : Vec Ideal S8x2048 .f32) (b1 : Vec Ideal S1x2048 .f32)
    (w2 : Vec Ideal S2048x512 .f32) (b2 : Vec Ideal S1x512 .f32) (p : Fin 4) (r : Fin 2048) (e : Fin 512) :
    k0_pay1 (F := Ideal) z w1 b1 w2 b2 (ix3 p r e)
      = Cert.Spec.outRow (fun q => z (ix2 (0 : Fin 1) q)) (fun f q => w1 (ix2 q f)) (fun f => b1 (ix2 (0 : Fin 1) f))
          (fun e f => w2 (ix2 f e)) (fun e => b2 (ix2 (0 : Fin 1) e)) e := by
  unfold k0_pay1
  simp only [shapeCast_self]
  refine (broadcastTo_apply _ broadcasts_S1x1x512_S4x2048x512 (ix3 p r e) (ix3 (0 : Fin 1) (0 : Fin 1) e) (fun a => ?_)).trans ?_
  · match a with
    | ⟨0, _⟩ => show 0 = if (1 : Nat) = 1 then 0 else _; rw [if_pos rfl]
    | ⟨1, _⟩ => show 0 = if (1 : Nat) = 1 then 0 else _; rw [if_pos rfl]
    | ⟨2, _⟩ => show e.val = if (512 : Nat) = 1 then 0 else e.val; rw [if_neg (by decide)]
  rw [shapeCast_ab_1ab_apply]
  unfold Cert.Spec.outRow Cert.Spec.hidden
  rw [addf_apply, second_product_apply]
  refine congrArg₂ (· + ·) (Finset.sum_congr rfl fun f _ => ?_) rfl
  rw [maximumf_apply, addf_apply, first_product_apply, broadcast_apply]
  exact congrArg₂ (· * ·) (congrArg₂ max rfl Ideal.ofBits_zero_f32) rfl

end Cert.KernelIdeal.Payload

end
-- ==== Proof.LibNary8.lean ====
/-
  A host operation over a LITERAL family of eight references (an eight-piece concatenate): its result at its own
  result buffer, with each operand's contents taken at that operand's own reference rather than at the family applied
  to a bound index — so that the contents of each operand can be rewritten in turn. The statement is the library's
  four-operand one (Lib/StableHlo/Run.lean) at eight operands, in the form for `rw` and in the form for `simp`.
-/
import Idealize.ShloMosaic.Lib.StableHlo.Run

noncomputable section

namespace Idealize.ShloMosaic.StableHlo

variable {τ : Topo} {sig : RefSig} {Val : EltTy → Type}
variable {x0 x1 x2 x3 x4 x5 x6 x7 y : Ref sig .tc}

/-- The result of `nary ![x0, …, x7] y f` at `y`: `f` of the eight operands' contents, each at its own reference. -/
theorem nary8_result
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (fun i => i.elim0))))))))) := by
  rw [nary_result]; congr 1; funext k; fin_cases k <;> rfl

/-- The same with the result reference un-indexed, for one `simp` pass over a whole line of operations. -/
theorem nary8_result'
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (fun i => i.elim0))))))))) :=
  nary8_result f hxs hy F

end Idealize.ShloMosaic.StableHlo

end
-- ==== Proof.KEntry.lean ====
/-
  What the region's five input arrays hold when the region is entered, as functions of the program's arguments.

  The host line before the region computes, from the two 256 × 256 arguments, the eight-entry vector `z` (the same
  operations, in the same order, as the reference's: so the vector is the reference's own stage of it), reshapes it to
  a 1 × 8 row, transposes the two weight matrices, and reshapes the two bias vectors to rows. Each of these five
  buffers is written once and nothing after it on the line writes it again.
-/
import proofs.«400961_j65481071405464_3_alg».proof.Proof.FrameKernelIdeal
import proofs.«400961_j65481071405464_3_alg».proof.Proof.RefSpec
import proofs.«400961_j65481071405464_3_alg».proof.Proof.LibNary8

set_option maxRecDepth 16384

noncomputable section

namespace Cert.KernelIdeal.Entry

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ)

set_option maxHeartbeats 40000000 in
/-- The 1 × 8 row is the reference's stage of `z`, of the same two arguments, reshaped. -/
theorem entry_z (c : Dev nD) :
    (entryVal m c main_v82 : S1x8.Idx → EReal)
      = shapeCast S1x8 (Cert.ReferenceIdeal.Read.val_main_v79 (F := Ideal) (m ((c.tc : Thread nD τ).loc main_arg1)) (m ((c.tc : Thread nD τ).loc main_arg2))) shapeCasts_S8_S1x8 := by
  dsimp only [entryVal, hostOps0]
  simp (disch := decide) only [after_cons, after_nil, nullary_result', unary_result', binary_result', reshape_result',
    nary8_result', nullary_result_ne', unary_result_ne', binary_result_ne', reshape_result_ne', nary_result_ne']
  rfl

set_option maxHeartbeats 40000000 in
/-- The 8 × 2048 matrix is the first layer's weights transposed. -/
theorem entry_w1t (c : Dev nD) :
    (entryVal m c main_v80 : S8x2048.Idx → EReal)
      = transpose S8x2048 [1, 0] (m ((c.tc : Thread nD τ).loc main_arg3)) transposes_S2048x8_S8x2048_1_0 := by
  dsimp only [entryVal, hostOps0]
  simp (disch := decide) only [after_cons, after_nil, nullary_result', unary_result', binary_result', reshape_result',
    nary8_result', nullary_result_ne', unary_result_ne', binary_result_ne', reshape_result_ne', nary_result_ne']

set_option maxHeartbeats 40000000 in
/-- The 2048 × 512 matrix is the second layer's weights transposed. -/
theorem entry_w2t (c : Dev nD) :
    (entryVal m c main_v81 : S2048x512.Idx → EReal)
      = transpose S2048x512 [1, 0] (m ((c.tc : Thread nD τ).loc main_arg5)) transposes_S512x2048_S2048x512_1_0 := by
  dsimp only [entryVal, hostOps0]
  simp (disch := decide) only [after_cons, after_nil, nullary_result', unary_result', binary_result', reshape_result',
    nary8_result', nullary_result_ne', unary_result_ne', binary_result_ne', reshape_result_ne', nary_result_ne']

set_option maxHeartbeats 40000000 in
/-- The 1 × 2048 row is the first layer's bias. -/
theorem entry_b1 (c : Dev nD) :
    (entryVal m c main_v83 : S1x2048.Idx → EReal)
      = shapeCast S1x2048 (m ((c.tc : Thread nD τ).loc main_arg4)) shapeCasts_S2048_S1x2048 := by
  dsimp only [entryVal, hostOps0]
  simp (disch := decide) only [after_cons, after_nil, nullary_result', unary_result', binary_result', reshape_result',
    nary8_result', nullary_result_ne', unary_result_ne', binary_result_ne', reshape_result_ne', nary_result_ne']
  rfl

set_option maxHeartbeats 40000000 in
/-- The 1 × 512 row is the second layer's bias. -/
theorem entry_b2 (c : Dev nD) :
    (entryVal m c main_v84 : S1x512.Idx → EReal)
      = shapeCast S1x512 (m ((c.tc : Thread nD τ).loc main_arg6)) shapeCasts_S512_S1x512 := by
  dsimp only [entryVal, hostOps0]
  simp (disch := decide) only [after_cons, after_nil, nullary_result', unary_result', binary_result', reshape_result',
    nary8_result', nullary_result_ne', unary_result_ne', binary_result_ne', reshape_result_ne', nary_result_ne']
  rfl

end Cert.KernelIdeal.Entry

end
-- ==== Proof.KFinal.lean ====
/-
  The output array after the run, as one function of the arguments.

  Each of the five input windows has, at every grid point, block index zero on both axes, and its block is as large as
  its array: the block the body is handed IS the array as the region found it. So at every point the body stores the same
  512 numbers, the specified output row of the arguments, broadcast over its [4, 2048, 512] block. The output window's
  block index at point `t` is `(0, t, 0)`: the four blocks are the four consecutive runs of 2048 along the middle axis,
  they cover the array, and an element of block `t` sits in the array at the same first and last coordinates. Hence every
  point writes back its block of ONE array, the one holding `outRow e` at every index with last coordinate `e`, and the
  output array ends holding exactly that.
-/
import proofs.«400961_j65481071405464_3_alg».proof.Proof.FrameKernelIdeal
import proofs.«400961_j65481071405464_3_alg».proof.Proof.KPayload
import proofs.«400961_j65481071405464_3_alg».proof.Proof.KEntry
import Idealize.ShloMosaic.Lib.Pipeline.Value
import Idealize.ShloMosaic.Lib.ValueIdx
import Idealize.ShloMosaic.Lib.ValueLayout

set_option maxRecDepth 16384

noncomputable section

namespace Cert.KernelIdeal.Final

open Cert.KernelIdeal Cert.KernelIdeal.Gen Cert.KernelIdeal.Hand Cert.KernelIdeal.Entry Cert.KernelIdeal.Payload
open Idealize.ShloMosaic Idealize.ShloMosaic.TcCoe Idealize.SL.Sem Idealize.ShloMosaic.ValueIdx
open Idealize.ShloMosaic.Pipeline (Dat)
open Cert.ReferenceIdeal.RefSpec (zOf)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The array the output ends holding: at index `i`, the specified output row at `i`'s last coordinate. -/
def finalArr (c : Dev nD) : S4x8192x512.Idx → EReal := fun i =>
  Cert.Spec.outRow (zOf (m ((c.tc : Thread nD τ).loc main_arg1)) (m ((c.tc : Thread nD τ).loc main_arg2)))
    (fun f q => ((m ((c.tc : Thread nD τ).loc main_arg3)) : S2048x8.Idx → EReal) (ix2 f q)) (fun f => ((m ((c.tc : Thread nD τ).loc main_arg4)) : S2048.Idx → EReal) (ix1 f))
    (fun e f => ((m ((c.tc : Thread nD τ).loc main_arg5)) : S512x2048.Idx → EReal) (ix2 e f)) (fun e => ((m ((c.tc : Thread nD τ).loc main_arg6)) : S512.Idx → EReal) (ix1 e))
    ⟨(i 2).val, (i 2).isLt⟩

/-- The printed index maps, decided over the four grid points: the inputs' block indices are zero, the output's is
    `(0, t, 0)`. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0 :=
  (by decide +kernel : ∀ t : Fin grid0.N, _)

/-- Every run of 2048 along the middle axis is some point's block. -/
theorem index_onto : ∀ q : Fin 4, ∃ t : Fin cfg0.N, win0_5.index t = ![0, q.val, 0] :=
  (by decide +kernel : ∀ q : Fin 4, ∃ t : Fin grid0.N, win0_5.index t = ![0, q.val, 0])

/-! ## Each input block is its whole array -/

theorem block_z (c : Dev nD) (t : Fin cfg0.N) : (blockAt m c 0 t : S1x8.Idx → EReal) = entryVal m c main_v82 := by
  funext j
  show entryVal m c main_v82 (((cfg0.win 0).blk t).view.emb j) = entryVal m c main_v82 j
  obtain ⟨e0, e1, -⟩ := index_facts t
  refine congrArg _ (funext fun a => Fin.ext ?_)
  match a with
  | ⟨0, _⟩ => show win0_0.index t (0 : Fin 2) * 1 + 1 * (j 0).val = (j 0).val; rw [e0]; omega
  | ⟨1, _⟩ => show win0_0.index t (1 : Fin 2) * 8 + 1 * (j 1).val = (j 1).val; rw [e1]; omega

theorem block_w1t (c : Dev nD) (t : Fin cfg0.N) : (blockAt m c 1 t : S8x2048.Idx → EReal) = entryVal m c main_v80 := by
  funext j
  show entryVal m c main_v80 (((cfg0.win 1).blk t).view.emb j) = entryVal m c main_v80 j
  obtain ⟨-, -, e0, e1, -⟩ := index_facts t
  refine congrArg _ (funext fun a => Fin.ext ?_)
  match a with
  | ⟨0, _⟩ => show win0_1.index t (0 : Fin 2) * 8 + 1 * (j 0).val = (j 0).val; rw [e0]; omega
  | ⟨1, _⟩ => show win0_1.index t (1 : Fin 2) * 2048 + 1 * (j 1).val = (j 1).val; rw [e1]; omega

theorem block_b1 (c : Dev nD) (t : Fin cfg0.N) : (blockAt m c 2 t : S1x2048.Idx → EReal) = entryVal m c main_v83 := by
  funext j
  show entryVal m c main_v83 (((cfg0.win 2).blk t).view.emb j) = entryVal m c main_v83 j
  obtain ⟨-, -, -, -, e0, e1, -⟩ := index_facts t
  refine congrArg _ (funext fun a => Fin.ext ?_)
  match a with
  | ⟨0, _⟩ => show win0_2.index t (0 : Fin 2) * 1 + 1 * (j 0).val = (j 0).val; rw [e0]; omega
  | ⟨1, _⟩ => show win0_2.index t (1 : Fin 2) * 2048 + 1 * (j 1).val = (j 1).val; rw [e1]; omega

theorem block_w2t (c : Dev nD) (t : Fin cfg0.N) : (blockAt m c 3 t : S2048x512.Idx → EReal) = entryVal m c main_v81 := by
  funext j
  show entryVal m c main_v81 (((cfg0.win 3).blk t).view.emb j) = entryVal m c main_v81 j
  obtain ⟨-, -, -, -, -, -, e0, e1, -⟩ := index_facts t
  refine congrArg _ (funext fun a => Fin.ext ?_)
  match a with
  | ⟨0, _⟩ => show win0_3.index t (0 : Fin 2) * 2048 + 1 * (j 0).val = (j 0).val; rw [e0]; omega
  | ⟨1, _⟩ => show win0_3.index t (1 : Fin 2) * 512 + 1 * (j 1).val = (j 1).val; rw [e1]; omega

theorem block_b2 (c : Dev nD) (t : Fin cfg0.N) : (blockAt m c 4 t : S1x512.Idx → EReal) = entryVal m c main_v84 := by
  funext j
  show entryVal m c main_v84 (((cfg0.win 4).blk t).view.emb j) = entryVal m c main_v84 j
  obtain ⟨-, -, -, -, -, -, -, -, e0, e1, -⟩ := index_facts t
  refine congrArg _ (funext fun a => Fin.ext ?_)
  match a with
  | ⟨0, _⟩ => show win0_4.index t (0 : Fin 2) * 1 + 1 * (j 0).val = (j 0).val; rw [e0]; omega
  | ⟨1, _⟩ => show win0_4.index t (1 : Fin 2) * 512 + 1 * (j 1).val = (j 1).val; rw [e1]; omega

/-! ## What a point writes back -/

/-- Point `t` writes back block `t` of `finalArr`. -/
theorem flushed_eq (c : Dev nD) (t : Fin cfg0.N) :
    (pdata m 0 c).flushed 5 t = ((cfg0.win 5).blk t).view.read (Elt Ideal) (finalArr m c) := by
  show (cfg0.win 5).cut (grid0.coords t) ((pdata m 0 c).after 5 t) = _
  rw [pdata_after5]
  unfold outBlock
  rw [View.canon_unit_zero zero3]
  simp only [View.ld_unit_zero (S := S1x8) zero2, View.ld_unit_zero (S := S8x2048) zero2, View.ld_unit_zero (S := S1x2048) zero2,
    View.ld_unit_zero (S := S2048x512) zero2, View.ld_unit_zero (S := S1x512) zero2]
  funext y
  show k0_pay1 (F := Ideal) (blockAt m c 0 t) (blockAt m c 1 t) (blockAt m c 2 t) (blockAt m c 3 t) (blockAt m c 4 t) y
    = finalArr m c (((cfg0.win 5).blk t).view.emb y)
  obtain ⟨p, r, e, rfl⟩ : ∃ (p : Fin 4) (r : Fin 2048) (e : Fin 512), y = ix3 p r e := ⟨y 0, y 1, y 2, eq_ix3 y⟩
  refine (stored_apply _ _ _ _ _ p r e).trans ?_
  obtain ⟨-, -, -, -, -, -, -, -, -, -, -, -, e2⟩ := index_facts t
  unfold finalArr
  refine Cert.Spec.outRow_congr (funext fun q => ?_) (funext fun f => funext fun q => ?_) (funext fun f => ?_)
    (funext fun e' => funext fun f => ?_) (funext fun e' => ?_) (Fin.ext ?_)
  · exact (congrFun (block_z m c t) _).trans ((congrFun (entry_z m c) _).trans (shapeCast_a_1a_apply _ _ 0 q))
  · exact (congrFun (block_w1t m c t) _).trans ((congrFun (entry_w1t m c) _).trans (transpose_ix2_apply _ _ q f))
  · exact (congrFun (block_b1 m c t) _).trans ((congrFun (entry_b1 m c) _).trans (shapeCast_a_1a_apply _ _ 0 f))
  · exact (congrFun (block_w2t m c t) _).trans ((congrFun (entry_w2t m c) _).trans (transpose_ix2_apply _ _ f e'))
  · exact (congrFun (block_b2 m c t) _).trans ((congrFun (entry_b2 m c) _).trans (shapeCast_a_1a_apply _ _ 0 e'))
  · show e.val = win0_5.index t (2 : Fin 3) * 512 + 1 * e.val
    rw [e2]; omega

/-! ## The blocks cover the array -/

theorem mem_block (t : Fin cfg0.N) (i : S4x8192x512.Idx) :
    i ∈ ((cfg0.win 5).blk t).view.set ↔ ∀ a : Fin 3, win0_5.index t a * S4x2048x512.size a ≤ (i a).val
      ∧ (i a).val < win0_5.index t a * S4x2048x512.size a + S4x2048x512.size a := by
  show i ∈ ((View.whole main_v85).slice (win0_5.rect t)).set ↔ _
  rw [View.set_slice_whole, Rect.mem_set_unit]
  exact Iff.rfl

theorem covered (i : S4x8192x512.Idx) :
    ∃ t : Fin cfg0.N, (cfg0.win 5).flush t = true ∧ i ∈ ((cfg0.win 5).blk t).view.set := by
  have h0 : (i 0).val < 4 := (i 0).isLt
  have h1 : (i 1).val < 8192 := (i 1).isLt
  have h2 : (i 2).val < 512 := (i 2).isLt
  obtain ⟨t, ht⟩ := index_onto ⟨(i 1).val / 2048, by omega⟩
  have q0 : win0_5.index t (0 : Fin 3) = 0 := congrFun ht 0
  have q1 : win0_5.index t (1 : Fin 3) = (i 1).val / 2048 := congrFun ht 1
  have q2 : win0_5.index t (2 : Fin 3) = 0 := congrFun ht 2
  refine ⟨t, flush0_5 t, ?_⟩
  rw [mem_block]
  intro a
  match a with
  | ⟨0, _⟩ => show win0_5.index t (0 : Fin 3) * 4 ≤ (i 0).val ∧ (i 0).val < win0_5.index t (0 : Fin 3) * 4 + 4; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 512 ≤ (i 2).val ∧ (i 2).val < win0_5.index t (2 : Fin 3) * 512 + 512; omega

/-! ## The array after the run -/

theorem final (c : Dev nD) : (pdata m 0 c).arrAt 5 cfg0.N = finalArr m c :=
  (pdata m 0 c).arrAt_eq_of_cover 5 (finalArr m c) (fun t _ => flushed_eq m c t) covered

/-- The run re-posted: the output array at `finalArr`, the arguments unchanged. -/
theorem run : θ_run defs (onTc (τ := τ) (main (F := Ideal))) ⟨m, fun _ => 0, ρ⟩ fun r => ∀ c : Dev nD,
      r.2.mem ((c.tc : Thread nD τ).loc main_v85) = finalArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 5).trans (final m c),
      ((h c).2 main_arg0 (Pipeline.mem_restRefs_of main_arg0 (by decide) (by decide))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c)⟩)
    (run_region m ρ)

end Cert.KernelIdeal.Final

end
-- ==== Proof.lean ====
/-
  The claim: the kernel program, its idealization and the reference each run to the end leaving their arguments
  unchanged, and at the ideal instance the idealized kernel and the reference end with equal results.

  Both programs compute, from two 256 × 256 arrays, a vector `z` of eight numbers by the same host operations; then
  `out[b, s, e] = (∑ f, max ((∑ q, z q · W1 f q) + b1 f) 0 · W2 e f) + b2 e`, which does not depend on `b` and `s`. The
  reference forms it with two batched matrix products over a broadcast of `z`; the kernel computes the 512 numbers once
  per grid point inside one pipelined region and broadcasts them over its output block. The same additions and products
  are applied in the same order on both sides, so the equality holds on all extended reals and the finiteness of the
  inputs is not used. The idealization rewrote no operation, so there is nothing to preserve.
-/
import proofs.«400961_j65481071405464_3_alg».proof.Defs
import proofs.«400961_j65481071405464_3_alg».proof.Proof.Gen.Kernel
import proofs.«400961_j65481071405464_3_alg».proof.Proof.Gen.KernelIdeal
import proofs.«400961_j65481071405464_3_alg».proof.Proof.Gen.ReferenceIdeal
import proofs.«400961_j65481071405464_3_alg».proof.Proof.Gen.Pre_finite_inputs
import proofs.«400961_j65481071405464_3_alg».proof.Proof.Gen.ReferenceIdeal.Run
import proofs.«400961_j65481071405464_3_alg».proof.Proof.Gen.ReferenceIdeal.Read
import proofs.«400961_j65481071405464_3_alg».proof.Proof.FrameKernel
import proofs.«400961_j65481071405464_3_alg».proof.Proof.FrameKernelIdeal
import proofs.«400961_j65481071405464_3_alg».proof.Proof.RefSpec
import proofs.«400961_j65481071405464_3_alg».proof.Proof.KFinal
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernel_ideal : Cert.frame_KernelIdeal := fun m ρ _ => Cert.KernelIdeal.Hand.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the array holding the specified output row at each index's last coordinate, of arguments that
    agree. -/
theorem algebraic : Cert.algebraic_KernelIdeal_ReferenceIdeal := by
  intro m ρ m' ρ' _ hagree
  refine ⟨fun c => Cert.KernelIdeal.Final.finalArr m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨-, h1, h2, h3, h4, h5, h6⟩ := hagree c
  rw [Cert.ReferenceIdeal.Read.val_main_v89_eq, h1, h2, h3, h4, h5, h6]
  funext i
  exact Cert.ReferenceIdeal.RefSpec.result_apply _ _ _ _ _ _ i

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
